-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x256 : Shape := ⟨2, ![1024, 256]⟩
abbrev S1024 : Shape := ⟨1, ![1024]⟩
abbrev S128x1024 : Shape := ⟨2, ![128, 1024]⟩
abbrev S128 : Shape := ⟨1, ![128]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S1024 : S_.BroadcastsInDim S1024 (![] : Fin 0 → Fin S1024.rank)
  reducesTo_S1024_S_d0 : S1024.ReducesTo [0] S_
  bcast_S_S128x1024 : S_.BroadcastsInDim S128x1024 (![] : Fin 0 → Fin S128x1024.rank)
  reducesTo_S128x1024_S_d0_1 : S128x1024.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x1024 1) : IVec S_ 1 :=
  let main_c_5 : IVec S_ 1 := constantI S_ 1 1#1
  let main_v17 : IVec S_ 1 := (fun x v => Host.reduce IntOp.andi x v reducesTo_S128x1024_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S65536x256 .f32) (main_arg1 : FVec F S1024x256 .f32) (main_arg2 : FVec F S1024 .f32) (main_arg3 : FVec F S128x1024 .f32) (main_arg4 : FVec F S128 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S128x1024 .f32 := Host.absf main_arg3
  let main_cst_4 : FVec F S_ .f32 := constant S_ .f32 0x7F800000#32
  let main_v15 : FVec F S128x1024 .f32 := broadcastInDim S128x1024 ![] bcast_S_S128x1024 main_cst_4
  let main_v16 : IVec S128x1024 1 := cmpf .olt main_v14 main_v15
  fn_part1 (F := F) main_arg4 main_v13 main_v16
-- ==== Kernel.lean ====
abbrev S65536x256 : Shape := ⟨2, ![65536, 256]⟩
abbrev S1024x256 : Shape := ⟨2, ![1024, 256]⟩
abbrev S1024 : Shape := ⟨1, ![1024]⟩
abbrev S128x1024 : Shape := ⟨2, ![128, 1024]⟩
abbrev S128 : Shape := ⟨1, ![128]⟩
abbrev S65536x128 : Shape := ⟨2, ![65536, 128]⟩
abbrev S2048x256 : Shape := ⟨2, ![2048, 256]⟩
abbrev S2048x128 : Shape := ⟨2, ![2048, 128]⟩
abbrev S2048 : Shape := ⟨1, ![2048]⟩
abbrev S2048x1 : Shape := ⟨2, ![2048, 1]⟩
abbrev S2048x1024 : Shape := ⟨2, ![2048, 1024]⟩
abbrev S1x1024 : Shape := ⟨2, ![1, 1024]⟩
abbrev S1x128 : Shape := ⟨2, ![1, 128]⟩

abbrev nBuf : Space → Nat
  | .hbm => 6
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S128x1024, .f32⟩
  | .hbm, ⟨4, _⟩ => ⟨S128, .f32⟩
  | .hbm, ⟨5, _⟩ => ⟨S65536x128, .f32⟩
  | .local _ .vmem, ⟨0, _⟩ => ⟨S2048x256, .f32⟩
  | .local _ .vmem, ⟨1, _⟩ => ⟨S2048x256, .f32⟩
  | .local _ .vmem, ⟨2, _⟩ => ⟨S1024x256, .f32⟩
  | .local _ .vmem, ⟨3, _⟩ => ⟨S1024, .f32⟩
  | .local _ .vmem, ⟨4, _⟩ => ⟨S128x1024, .f32⟩
  | .local _ .vmem, ⟨5, _⟩ => ⟨S128, .f32⟩
  | .local _ .vmem, ⟨6, _⟩ => ⟨S2048x128, .f32⟩
  | .local _ .vmem, ⟨7, _⟩ => ⟨S2048x128, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  inb_S1024x256_S1024x256_0_0 : ∀ a, (![0, 0] : Fin 2 → Nat) a + S1024x256.size a ≤ S1024x256.size a
  h_S1024x256 : 0 < S1024x256.numel
  reduces_S2048x256_S2048 : S2048x256.Reduces [1] S2048
  shapeCasts_S2048_S2048x1 : S2048.ShapeCasts S2048x1
  reduces_S1024x256_S1024 : S1024x256.Reduces [1] S1024
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1x1024 : S1024.ShapeCasts S1x1024
  broadcasts_S2048x1_S2048x1024 : S2048x1.Broadcasts S2048x1024
  broadcasts_S1x1024_S2048x1024 : S1x1024.Broadcasts S2048x1024
  inb_S128x1024_S128x1024_0_0 : ∀ a, (![0, 0] : Fin 2 → Nat) a + S128x1024.size a ≤ S128x1024.size a
  h_S128x1024 : 0 < S128x1024.numel
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S2048x128_S2048x128_0_0 : ∀ a, (![0, 0] : Fin 2 → Nat) a + S2048x128.size a ≤ S2048x128.size a
  h_S2048x128 : 0 < S2048x128.numel
  dot_S2048x256_S1024x256_S2048x1024_1_1_0_0_n_n_wf : DotDims.WF S2048x256 S1024x256 S2048x1024 [1] [1] [0] [0] [] []
  dot_S2048x1024_S128x1024_S2048x128_1_1_0_0_n_n_wf : DotDims.WF S2048x1024 S128x1024 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x1024.size a
  hwx0_3 : ∀ i : grid0.Coords, EltTy.bits .f32 = 32 ∨ (Rect.block (s := S128x1024) S128x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x128.size a ≤ S65536x128.size a
  hwx0_5 : ∀ i : grid0.Coords, EltTy.bits .f32 = 32 ∨ (Rect.block (s := S65536x128) S2048x128.size (cc0_transform_5 i) (hinb0_5 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x1024_S128x1024_S2048x128_1_1_0_0_n_n : DotDims S2048x1024 S128x1024 S2048x128 where
  lhsContracting := [1]
  rhsContracting := [1]
  lhsNonContracting := [0]
  rhsNonContracting := [0]
  lhsBatch := []
  rhsBatch := []
  wf := dot_S2048x1024_S128x1024_S2048x128_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0) S2048x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x256 : Shape := ⟨2, ![1024, 256]⟩
abbrev S1024 : Shape := ⟨1, ![1024]⟩
abbrev S128x1024 : Shape := ⟨2, ![128, 1024]⟩
abbrev S128 : Shape := ⟨1, ![128]⟩
abbrev S_ : Shape := ⟨0, ![]⟩
abbrev S65536 : Shape := ⟨1, ![65536]⟩
abbrev S65536x1024 : Shape := ⟨2, ![65536, 1024]⟩
abbrev S65536x1 : Shape := ⟨2, ![65536, 1]⟩
abbrev S1x1024 : Shape := ⟨2, ![1, 1024]⟩
abbrev S1024x128 : Shape := ⟨2, ![1024, 128]⟩
abbrev S65536x128 : Shape := ⟨2, ![65536, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x256, .f32⟩
  | .hbm, ⟨2, _⟩ => ⟨S1024, .f32⟩
  | .hbm, ⟨3, _⟩ => ⟨S128x1024, .f32⟩
  | .hbm, ⟨4, _⟩ => ⟨S128, .f32⟩
  | .hbm, ⟨5, _⟩ => ⟨S65536x256, .f32⟩
  | .hbm, ⟨6, _⟩ => ⟨S_, .f32⟩
  | .hbm, ⟨7, _⟩ => ⟨S65536, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S65536x1024, .f32⟩
  | .hbm, ⟨12, _⟩ => ⟨S65536x1, .f32⟩
  | .hbm, ⟨13, _⟩ => ⟨S1x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S_, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S65536x1024, .f32⟩
  | .hbm, ⟨26, _⟩ => ⟨S1024x128, .f32⟩
  | .hbm, ⟨27, _⟩ => ⟨S65536x128, .f32⟩
  | .hbm, ⟨28, _⟩ => ⟨S1x128, .f32⟩
  | .hbm, ⟨29, _⟩ => ⟨S65536x128, .f32⟩
  | .hbm, ⟨30, _⟩ => ⟨S65536x128, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  reducesTo_S1024x256_S1024_d1 : S1024x256.ReducesTo [1] S1024
  bcast_S65536_S65536x1_0 : S65536.BroadcastsInDim S65536x1 (![0] : Fin 1 → Fin S65536x1.rank)
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  bcast_S_S65536x1024 : S_.BroadcastsInDim S65536x1024 (![] : Fin 0 → Fin S65536x1024.rank)
  transposes_S128x1024_S1024x128_1_0 : S128x1024.Transposes [1, 0] S1024x128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  dot_S65536x256_S1024x256_S65536x1024_1_1_0_0_n_n_wf : DotDims.WF S65536x256 S1024x256 S65536x1024 [1] [1] [0] [0] [] []
  dot_S65536x1024_S1024x128_S65536x128_1_0_0_1_n_n_wf : DotDims.WF S65536x1024 S1024x128 S65536x128 [1] [0] [0] [1] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf
def dot_S65536x1024_S1024x128_S65536x128_1_0_0_1_n_n : DotDims S65536x1024 S1024x128 S65536x128 where
  lhsContracting := [1]
  rhsContracting := [0]
  lhsNonContracting := [0]
  rhsNonContracting := [1]
  lhsBatch := []
  rhsBatch := []
  wf := dot_S65536x1024_S1024x128_S65536x128_1_0_0_1_n_n_wf

class Facts : Prop extends Facts₀ where

variable [Facts]
-- ==== Proof.LibTransposedDot.lean ====
/-
  A matrix product with the right operand transposed, read at an entry.

  For the dimension numbers `⟨[1], [1], [0], [0], [], []⟩` (an M×K operand times an N×K operand, both contracted on
  their last axis, no batch axis), the product accumulated into a zero array has, at entry (p, q), the value
  Σ_k lhs (p, k) · rhs (q, k) on the extended reals: no rounding and no order of summation is left in it. The statement
  is generic in the three extents and in the operands' float formats (a change of format is the identity on the
  extended reals); a dimension record with these six lists IS `DotDims.transposedRhs M K N` (its well-formedness
  proof is a proposition), so the lemma applies to it as it stands.
-/
import Idealize.ShloMosaic.PureOps.Ideal.Laws
import Idealize.ShloMosaic.Lib.ValueIdx

namespace Idealize.ShloMosaic.TransposedDot

open Idealize.ShloMosaic Idealize.ShloMosaic.ValueIdx

/-- The left operand's row coordinate at output entry `i` is `i`'s row. -/
theorem lhs_row (M K N : Nat) (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The left operand's column coordinate is the contraction index. -/
theorem lhs_col (M K N : Nat) (i : (⟨2, ![M, N]⟩ : Shape).Idx) (c : (DotDims.transposedRhs M K N).contr.Idx) :
    ((DotDims.transposedRhs M K N).lhsIdx i c 1).val = (c ⟨0, Nat.one_pos⟩).val :=
  (DotDims.transposedRhs M K N).lhsIdx_val_of_single rfl i c

/-- The right operand's row coordinate at output entry `i` is `i`'s column. -/
theorem rhs_row (M K N : Nat) (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The right operand's column coordinate is the contraction index. -/
theorem rhs_col (M K N : Nat) (i : (⟨2, ![M, N]⟩ : Shape).Idx) (c : (DotDims.transposedRhs M K N).contr.Idx) :
    ((DotDims.transposedRhs M K N).rhsIdx i c 1).val = (c ⟨0, Nat.one_pos⟩).val :=
  (DotDims.transposedRhs M K N).rhsIdx_val_of_single rfl i c

/-- An M×K by N×K product into the zero array, at entry (p, q), is `Σ_k lhs (p, k) · rhs (q, k)`. -/
theorem matmul_zero_apply {φ₁ φ₂ : FTy} (M K N : Nat) (lhs : FVec Ideal ⟨2, ![M, K]⟩ φ₁) (rhs : FVec Ideal ⟨2, ![N, K]⟩ φ₂)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact lhs_row M K N _ _
      | ⟨1, _⟩ => exact (lhs_col M K N _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rhs_row M K N _ _
      | ⟨1, _⟩ => exact (rhs_col M K N _ _).trans hk)
  rw [el, er]

end Idealize.ShloMosaic.TransposedDot
-- ==== Proof.LibKeepdims.lean ====
/-
  The column forms a row reduction with kept dimensions goes through, read at an entry given by coordinates, and a
  row sum itself.

  A length-`a` vector viewed as an `a × 1` column has, at (p, u), the vector's entry p (the unit coordinate carries
  nothing); an `a × 1` column spread over `b` columns has, at (p, c), the column's entry p; and the sum of an
  `a × b` array along its second axis, started from the additive neutral word, is at p the sum over the row p, on the
  extended reals. All three are generic in the extents.
-/
import Idealize.ShloMosaic.Lib.Pipeline.Value
import Idealize.ShloMosaic.Lib.ValueIdx
import Idealize.ShloMosaic.PureOps.Ideal.Laws

namespace Idealize.ShloMosaic.Keepdims

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` array along its second axis, read at `p` on the extended reals: the sum over the row `p`. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ d : Fin b, src (ix2 p d) := by
  refine (Ideal.multiReduction_add_single src acc h hφ hacc (ix1 p)).trans ?_
  refine Finset.sum_congr rfl fun d _ => congrArg src ?_
  funext ax
  apply Fin.ext
  match ax with
  | ⟨0, _⟩ => rfl
  | ⟨1, _⟩ => rfl

end Idealize.ShloMosaic.Keepdims
-- ==== Proof.RbfSpec.lean ====
/-
  The radial-basis network as one function of its five arrays, entry by entry, on the extended reals.

  For a data row `x_n` (256 numbers), centres `c_k` (1024 rows of 256), widths `σ_k`, a weight matrix `W` (128 × 1024)
  and a bias `β` (128):

      φ_k(x_n) = exp( (0 − σ_k) · ( (‖x_n‖² + ‖c_k‖²) − 2 · ⟨x_n, c_k⟩ ) ),      out[n, o] = Σ_k φ_k(x_n) · W[o, k] + β[o].

  Entry (n, o) depends on row n of the data only, so the function is written for ONE row (`rowOut`) and the whole
  array (`network`) applies it to each row. The squared distance is kept in the expanded form both programs compute,
  with its grouping: on the extended reals neither regrouping nor the square of a difference is free at the infinities,
  and none is needed.
-/
import Idealize.ShloMosaic.PureOps.Ideal
import Idealize.ShloMosaic.Lib.ValueIdx

noncomputable section

namespace Cert.Rbf

open Idealize.ShloMosaic Idealize.ShloMosaic.ValueIdx

/-- The squared length of a row: the sum of its entries' squares. -/
def sqNorm {D : ℕ} (v : Fin D → EReal) : EReal := ∑ d : Fin D, v d * v d

/-- The inner product of two rows. -/
def inner {D : ℕ} (u v : Fin D → EReal) : EReal := ∑ d : Fin D, u d * v d

/-- Row `k` of the centres. -/
abbrev centre (c : (⟨2, ![1024, 256]⟩ : Shape).Idx → EReal) (k : Fin 1024) : Fin 256 → EReal := fun d => c (ix2 k d)

/-- The `k`-th radial feature of a data row: `exp((0 − σ_k) · ((‖x‖² + ‖c_k‖²) − 2 · ⟨x, c_k⟩))`; the factor two is the
    float word of 2.0. -/
def feature (xrow : Fin 256 → EReal) (c : (⟨2, ![1024, 256]⟩ : Shape).Idx → EReal) (σ : (⟨1, ![1024]⟩ : Shape).Idx → EReal)
    (k : Fin 1024) : EReal :=
  Ideal.exp ((0 - σ (ix1 k)) * ((sqNorm xrow + sqNorm (centre c k)) - Ideal.ofBits .f32 0x40000000#32 * inner xrow (centre c k)))

/-- Output `o` of a data row: the features weighted by row `o` of `W`, plus the bias. -/
def rowOut (xrow : Fin 256 → EReal) (c : (⟨2, ![1024, 256]⟩ : Shape).Idx → EReal) (σ : (⟨1, ![1024]⟩ : Shape).Idx → EReal)
    (W : (⟨2, ![128, 1024]⟩ : Shape).Idx → EReal) (β : (⟨1, ![128]⟩ : Shape).Idx → EReal) (o : Fin 128) : EReal :=
  (∑ k : Fin 1024, feature xrow c σ k * W (ix2 o k)) + β (ix1 o)

/-- The whole output array: `rowOut` of each data row. -/
def network (x : (⟨2, ![65536, 256]⟩ : Shape).Idx → EReal) (c : (⟨2, ![1024, 256]⟩ : Shape).Idx → EReal)
    (σ : (⟨1, ![1024]⟩ : Shape).Idx → EReal) (W : (⟨2, ![128, 1024]⟩ : Shape).Idx → EReal) (β : (⟨1, ![128]⟩ : Shape).Idx → EReal) :
    (⟨2, ![65536, 128]⟩ : Shape).Idx → EReal :=
  fun i => rowOut (fun d => x (ix2 (i 0) d)) c σ W β (i 1)

end Cert.Rbf

end
-- ==== Proof.KernelRow.lean ====
/-
  One entry of the kernel body's stored value, on the extended reals.

  The body computes, from a block of 2048 data rows and the whole centres, widths, weights and bias, a 2048 × 128 tile.
  Its entry (r, o) is `Rbf.rowOut` of row r of the block: the two row-wise sums of squares pass through a kept unit
  axis and a spread over the 1024 centres (a column and a row respectively), the cross term is a product with the
  right operand contracted on its last axis, the changes of float format are the identity, and the last product sums
  the 1024 features against row o of the weights. Nothing is regrouped: every step is the reading of one operation at
  an entry.
-/
import proofs.«110555_j45226005627083_1_alg».proof.Proof.Gen.KernelIdeal.Skeleton
import proofs.«110555_j45226005627083_1_alg».proof.Proof.LibTransposedDot
import proofs.«110555_j45226005627083_1_alg».proof.Proof.LibKeepdims
import proofs.«110555_j45226005627083_1_alg».proof.Proof.RbfSpec
import Idealize.ShloMosaic.Lib.ValueLayout
import Idealize.ShloMosaic.PureOps.Ideal.Laws

noncomputable section

namespace Cert.KernelIdeal.Row

open Cert.KernelIdeal Cert.KernelIdeal.Gen Idealize.ShloMosaic Idealize.ShloMosaic.ValueIdx

/-- The squared length of row `r` of the data block, as the body forms it: summed along the row, kept as a column, spread
    over the centres. -/
theorem dataNorm_apply (x0 : FVec Ideal S2048x256 .f32) (r : Fin 2048) (k : Fin 1024)
    (hφ : FKind.Formats .f32) (hacc : (0x00000000#32 : BitVec 32) = FKind.add.neutral .f32 hφ) :
    broadcastTo S2048x1024
        (shapeCast S2048x1 (multiReduction .add [1] S2048 (mulf x0 x0) 0x00000000#32 reduces_S2048x256_S2048 hφ hacc)
          shapeCasts_S2048_S2048x1)
        broadcasts_S2048x1_S2048x1024 (ix2 r k)
      = Cert.Rbf.sqNorm (fun d => x0 (ix2 r d)) :=
  (Keepdims.broadcastTo_a1_ab_apply _ _ r k).trans
    ((Keepdims.shapeCast_a_a1_apply _ _ r 0).trans (Keepdims.rowSum_apply (mulf x0 x0) _ _ _ _ r))

/-- The squared length of centre `k`, as the body forms it: summed along the row, laid as one row, spread over the data
    rows. -/
theorem centreNorm_apply (x1 : FVec Ideal S1024x256 .f32) (r : Fin 2048) (k : Fin 1024)
    (hφ : FKind.Formats .f32) (hacc : (0x00000000#32 : BitVec 32) = FKind.add.neutral .f32 hφ) :
    broadcastTo S2048x1024
        (shapeCast S1x1024 (multiReduction .add [1] S1024 (mulf x1 x1) 0x00000000#32 reduces_S1024x256_S1024 hφ hacc)
          shapeCasts_S1024_S1x1024)
        broadcasts_S1x1024_S2048x1024 (ix2 r k)
      = Cert.Rbf.sqNorm (Cert.Rbf.centre x1 k) :=
  (broadcastTo_1b_ab_apply _ _ r k).trans
    ((shapeCast_a_1a_apply _ _ 0 k).trans (Keepdims.rowSum_apply (mulf x1 x1) _ _ _ _ k))

/-- The negated width of centre `k`, as the body forms it: zero minus the width, laid as one row, spread over the data
    rows. -/
theorem negWidth_apply (x2 : FVec Ideal S1024 .f32) (r : Fin 2048) (k : Fin 1024) :
    broadcastTo S2048x1024
        (subf (broadcast S1x1024 (FloatOps.ofBits (F := Ideal) .f32 0x00000000#32)) (shapeCast S1x1024 x2 shapeCasts_S1024_S1x1024))
        broadcasts_S1x1024_S2048x1024 (ix2 r k)
      = 0 - x2 (ix1 k) :=
  (broadcastTo_1b_ab_apply _ _ r k).trans
    (congrArg₂ (· - ·) Ideal.ofBits_zero_f32 (shapeCast_a_1a_apply x2 _ 0 k))

/-- Entry (r, o) of the stored tile is `Rbf.rowOut` of row r of the data block. -/
theorem pay_apply (x0 : FVec Ideal S2048x256 .f32) (x1 : FVec Ideal S1024x256 .f32) (x2 : FVec Ideal S1024 .f32)
    (x3 : FVec Ideal S128x1024 .f32) (x4 : FVec Ideal S128 .f32) (r : Fin 2048) (o : Fin 128) :
    k0_pay1 (F := Ideal) x0 x1 x2 x3 x4 (ix2 r o) = Cert.Rbf.rowOut (fun d => x0 (ix2 r d)) x1 x2 x3 x4 o := by
  unfold k0_pay1 Cert.Rbf.rowOut
  refine congrArg₂ (· + ·) ?_ ?_
  · -- the second product: the features of row r against row o of the weights
    refine (TransposedDot.matmul_zero_apply 2048 1024 128 _ _ r o).trans (Finset.sum_congr rfl fun k _ => ?_)
    refine congrArg₂ (· * ·) ?_ rfl
    -- the feature: the exponential of (negated width) · (expanded squared distance)
    unfold Cert.Rbf.feature
    refine congrArg Ideal.exp (congrArg₂ (· * ·) (negWidth_apply x2 r k) ?_)
    refine congrArg₂ (· - ·) (congrArg₂ (· + ·) (dataNorm_apply x0 r k _ _) (centreNorm_apply x1 r k _ _)) ?_
    refine congrArg₂ (· * ·) rfl ?_
    -- the cross term: row r of the data against centre k
    exact TransposedDot.matmul_zero_apply 2048 256 1024 _ _ r k
  · -- the bias, laid as one row and spread over the data rows
    exact (broadcastTo_1b_ab_apply _ _ r o).trans (shapeCast_a_1a_apply x4 _ 0 o)

end Cert.KernelIdeal.Row

end
-- ==== Proof.KernelArray.lean ====
/-
  The kernel's output array after the run is the network function of the arguments.

  The grid has 32 points; point t stages rows 2048·t … 2048·t + 2047 of the data (all 256 columns), the whole of the
  centres, widths, weights and bias (their block index is always zero), and writes back rows 2048·t … 2048·t + 2047 of
  the output (all 128 columns). So entry (r, o) of the tile point t writes is `Rbf.rowOut` of data row 2048·t + r, which
  is the network function at (2048·t + r, o); the 32 tiles cover the 65536 rows, the point covering row n being n / 2048.
-/
import proofs.«110555_j45226005627083_1_alg».proof.Proof.Gen.KernelIdeal.Value
import proofs.«110555_j45226005627083_1_alg».proof.Proof.KernelRow

noncomputable section

namespace Cert.KernelIdeal.Tile

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block index of every window at every grid point: the data and the output move with the point along the rows;
    the four resident operands stay at block zero. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- One entry of a tile against the whole-array function: if the staged data block's row r is row n of the data, the
    four resident blocks are the whole arrays, and the array index i is (n, o), then entry (r, o) of the body's stored
    value is the network function at i. -/
theorem tile_entry (x : FVec Ideal S65536x256 .f32) (c : FVec Ideal S1024x256 .f32) (σ : FVec Ideal S1024 .f32)
    (W : FVec Ideal S128x1024 .f32) (β : FVec Ideal S128 .f32)
    (xb : FVec Ideal S2048x256 .f32) (cb : FVec Ideal S1024x256 .f32) (σb : FVec Ideal S1024 .f32)
    (Wb : FVec Ideal S128x1024 .f32) (βb : FVec Ideal S128 .f32)
    (i : S65536x128.Idx) (n : Fin 65536) (r : Fin 2048) (o : Fin 128)
    (hn : (i 0).val = n.val) (ho : (i 1).val = o.val)
    (hx : ∀ d : Fin 256, xb (ix2 r d) = x (ix2 n d)) (hc : cb = c) (hσ : σb = σ) (hW : Wb = W) (hβ : βb = β) :
    k0_pay1 (F := Ideal) xb cb σb Wb βb (ix2 r o) = Cert.Rbf.network x c σ W β i := by
  have hi : i = ix2 n o := Shape.idx_ext₂ hn ho
  subst hi hc hσ hW hβ
  refine (Row.pay_apply xb cb σb Wb βb r o).trans ?_
  unfold Cert.Rbf.network
  exact congrArg (fun v => Cert.Rbf.rowOut v cb σb Wb βb o) (funext hx)

/-- What point `t` writes back is block `t` of the network function of the argument arrays as the region finds them. -/
theorem flushed_eq (c : Dev nD) (t : Fin cfg0.N) :
    (dats m 0 c).flushed 5 t = ((cfg0.win 5).blk t).view.read (Elt Ideal)
      (Cert.Rbf.network (V m c main_arg0) (V m c main_arg1) (V m c main_arg2) (V m c main_arg3) (V m c main_arg4)) := by
  rw [Value.flushed5]
  unfold out0_5
  rw [View.canon_unit_zero zero2]
  simp only [View.ld_unit_zero (S := S2048x256) zero2, View.ld_unit_zero (S := S1024x256) zero2,
    View.ld_unit_zero (S := S1024) zero1, View.ld_unit_zero (S := S128x1024) zero2, View.ld_unit_zero (S := S128) zero1]
  obtain ⟨e00, e01, e10, e11, e20, e30, e31, e40, e50, e51⟩ := blockIndex t
  have ht : t.val < 32 := lt_of_lt_of_eq t.isLt N_0
  funext j
  obtain ⟨r, o, rfl⟩ : ∃ (r : Fin 2048) (o : Fin 128), j = ix2 r o := ⟨j 0, j 1, eq_ix2 j⟩
  have hr : r.val < 2048 := r.isLt
  show k0_pay1 (F := Ideal) (iblk m c 0 t) (iblk m c 1 t) (iblk m c 2 t) (iblk m c 3 t) (iblk m c 4 t) (ix2 r o)
    = Cert.Rbf.network (V m c main_arg0) (V m c main_arg1) (V m c main_arg2) (V m c main_arg3) (V m c main_arg4)
        (((cfg0.win 5).blk t).view.emb (ix2 r o))
  refine tile_entry (V m c main_arg0) (V m c main_arg1) (V m c main_arg2) (V m c main_arg3) (V m c main_arg4)
    (iblk m c 0 t) (iblk m c 1 t) (iblk m c 2 t) (iblk m c 3 t) (iblk m c 4 t)
    (((cfg0.win 5).blk t).view.emb (ix2 r o)) ⟨t.val * 2048 + r.val, by omega⟩ r o ?_ ?_ ?_ ?_ ?_ ?_ ?_
  · show win0_5.index t (0 : Fin 2) * 2048 + 1 * r.val = t.val * 2048 + r.val
    omega
  · show win0_5.index t (1 : Fin 2) * 128 + 1 * o.val = o.val
    omega
  · intro d
    show V m c main_arg0 (((cfg0.win 0).blk t).view.emb (ix2 r d)) = V m c main_arg0 (ix2 ⟨t.val * 2048 + r.val, by omega⟩ d)
    refine congrArg _ (Shape.idx_ext₂ ?_ ?_)
    · show win0_0.index t (0 : Fin 2) * 2048 + 1 * r.val = t.val * 2048 + r.val
      omega
    · show win0_0.index t (1 : Fin 2) * 256 + 1 * d.val = d.val
      omega
  · funext y
    show V m c main_arg1 (((cfg0.win 1).blk t).view.emb y) = V m c main_arg1 y
    refine congrArg _ (Shape.idx_ext₂ ?_ ?_)
    · show win0_1.index t (0 : Fin 2) * 1024 + 1 * (y 0).val = (y 0).val
      omega
    · show win0_1.index t (1 : Fin 2) * 256 + 1 * (y 1).val = (y 1).val
      omega
  · funext y
    show V m c main_arg2 (((cfg0.win 2).blk t).view.emb y) = V m c main_arg2 y
    refine congrArg _ (funext fun a => Fin.ext ?_)
    match a with
    | ⟨0, _⟩ =>
      show win0_2.index t (0 : Fin 1) * 1024 + 1 * (y 0).val = (y 0).val
      omega
  · funext y
    show V m c main_arg3 (((cfg0.win 3).blk t).view.emb y) = V m c main_arg3 y
    refine congrArg _ (Shape.idx_ext₂ ?_ ?_)
    · show win0_3.index t (0 : Fin 2) * 128 + 1 * (y 0).val = (y 0).val
      omega
    · show win0_3.index t (1 : Fin 2) * 1024 + 1 * (y 1).val = (y 1).val
      omega
  · funext y
    show V m c main_arg4 (((cfg0.win 4).blk t).view.emb y) = V m c main_arg4 y
    refine congrArg _ (funext fun a => Fin.ext ?_)
    match a with
    | ⟨0, _⟩ =>
      show win0_4.index t (0 : Fin 1) * 128 + 1 * (y 0).val = (y 0).val
      omega

/-- An index of the output array is in point `t`'s block iff each coordinate is in the block's range on its axis. -/
theorem mem_blk (t : Fin cfg0.N) (i : S65536x128.Idx) :
    i ∈ ((cfg0.win 5).blk t).view.set ↔ ∀ a : Fin 2, win0_5.index t a * S2048x128.size a ≤ (i a).val ∧ (i a).val < win0_5.index t a * S2048x128.size a + S2048x128.size a := by
  show i ∈ ((View.whole main_v0).slice (win0_5.rect t)).set ↔ _
  rw [View.set_slice_whole, Rect.mem_set_unit]
  exact Iff.rfl

/-- Every index of the output array is in some point's block: row n is written by point n / 2048. -/
theorem covered (i : S65536x128.Idx) :
    ∃ t : Fin cfg0.N, (cfg0.win 5).flush t = true ∧ i ∈ ((cfg0.win 5).blk t).view.set := by
  have hi0 : (i 0).val < 65536 := (i 0).isLt
  have hi1 : (i 1).val < 128 := (i 1).isLt
  have hN : grid0.N = 32 := N_0
  obtain ⟨t, ht⟩ : ∃ t : Fin cfg0.N, t.val = (i 0).val / 2048 :=
    ⟨⟨(i 0).val / 2048, by show _ < grid0.N; rw [hN]; omega⟩, rfl⟩
  obtain ⟨-, -, -, -, -, -, -, -, e50, e51⟩ := blockIndex t
  refine ⟨t, flush0_5 t, ?_⟩
  rw [mem_blk]
  intro a
  match a with
  | ⟨0, _⟩ =>
    show win0_5.index t (0 : Fin 2) * 2048 ≤ (i 0).val ∧ (i 0).val < win0_5.index t (0 : Fin 2) * 2048 + 2048
    omega
  | ⟨1, _⟩ =>
    show win0_5.index t (1 : Fin 2) * 128 ≤ (i 1).val ∧ (i 1).val < win0_5.index t (1 : Fin 2) * 128 + 128
    omega

/-- The output array after the run is the network function of the argument arrays as launched. -/
theorem final (c : Dev nD) :
    (dats m 0 c).arrAt 5 cfg0.N
      = Cert.Rbf.network (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5 _ (fun t _ => flushed_eq m c t) covered

/-- The kernel's run with its result named: the output array ends at the network function of the arguments, and the
    arguments end as launched. -/
theorem run : θ_run defs (onTc (τ := τ) (main (F := Ideal))) ⟨m, fun _ => 0, ρ⟩ fun r => ∀ c : Dev nD,
      r.2.mem ((c : Thread nD τ).loc main_v0)
          = Cert.Rbf.network (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Tile

end
-- ==== Proof.RefArray.lean ====
/-
  The reference's result is the network function of the arguments.

  The reference computes the same expanded squared distance on whole arrays: row sums of squares of the data and of
  the centres (each started from the zero word, which adds nothing), the cross products as one matrix product with the
  centres contracted on their last axis, the widths negated, the exponential, then a product with the transposed
  weights and the bias. Read at entry (n, o), stage by stage, this is `Rbf.rowOut` of data row n; the only arithmetic
  used is that zero is neutral for the sum and that the negative of a number is zero minus it.
-/
import proofs.«110555_j45226005627083_1_alg».proof.Proof.Gen.ReferenceIdeal.Read
import proofs.«110555_j45226005627083_1_alg».proof.Proof.RbfSpec
import Idealize.ShloMosaic.PureOps.Ideal.Laws

noncomputable section

namespace Cert.ReferenceIdeal.RefValue

open Cert.ReferenceIdeal Cert.ReferenceIdeal.Read Idealize.ShloMosaic Idealize.ShloMosaic.ValueIdx

/-- The data's row sums of squares, spread over the centres: at (n, k), the squared length of data row n. -/
theorem dataNorm_apply (x0 : (⟨S65536x256, .f32⟩ : BufTy).Contents (Elt Ideal)) (n : Fin 65536) (k : Fin 1024) :
    val_main_v7 (F := Ideal) x0 (ix2 n k) = Cert.Rbf.sqNorm (fun d => x0 (ix2 n d)) := by
  refine (val_main_v7_apply x0 _).trans ((val_main_v5_apply x0 _).trans ((val_main_v1_apply x0 _).trans ?_))
  refine (congrArg₂ (· + ·) Ideal.ofBits_zero_f32 rfl).trans ((zero_add _).trans ?_)
  refine Finset.sum_congr rfl fun d _ => ?_
  have e : idx_main_v1 (idx_main_v5 (idx_main_v7 (ix2 n k))) d = ix2 n d := Shape.idx_ext₂ rfl rfl
  rw [e]
  rfl

/-- The centres' row sums of squares, spread over the data rows: at (n, k), the squared length of centre k. -/
theorem centreNorm_apply (x1 : (⟨S1024x256, .f32⟩ : BufTy).Contents (Elt Ideal)) (n : Fin 65536) (k : Fin 1024) :
    val_main_v8 (F := Ideal) x1 (ix2 n k) = Cert.Rbf.sqNorm (Cert.Rbf.centre x1 k) := by
  refine (val_main_v8_apply x1 _).trans ((val_main_v6_apply x1 _).trans ((val_main_v3_apply x1 _).trans ?_))
  refine (congrArg₂ (· + ·) Ideal.ofBits_zero_f32 rfl).trans ((zero_add _).trans ?_)
  refine Finset.sum_congr rfl fun d _ => ?_
  have e : idx_main_v3 (idx_main_v6 (idx_main_v8 (ix2 n k))) d = ix2 k d := Shape.idx_ext₂ rfl rfl
  rw [e]
  rfl

/-- The cross products: at (n, k), data row n against centre k. -/
theorem cross_apply (x0 : (⟨S65536x256, .f32⟩ : BufTy).Contents (Elt Ideal)) (x1 : (⟨S1024x256, .f32⟩ : BufTy).Contents (Elt Ideal))
    (n : Fin 65536) (k : Fin 1024) :
    val_main_v4 (F := Ideal) x0 x1 (ix2 n k) = Cert.Rbf.inner (fun d => x0 (ix2 n d)) (Cert.Rbf.centre x1 k) := by
  refine (val_main_v4_apply x0 x1 _).trans (Finset.sum_congr rfl fun d _ => ?_)
  have el : lidx_main_v4 (ix2 n k) d = ix2 n d := Shape.idx_ext₂ rfl rfl
  have er : ridx_main_v4 (ix2 n k) d = ix2 k d := Shape.idx_ext₂ rfl rfl
  rw [el, er]

/-- The negated widths, spread over the data rows: at (n, k), zero minus the width of centre k. -/
theorem negWidth_apply (x2 : (⟨S1024, .f32⟩ : BufTy).Contents (Elt Ideal)) (n : Fin 65536) (k : Fin 1024) :
    val_main_v15 (F := Ideal) x2 (ix2 n k) = 0 - x2 (ix1 k) := by
  refine (val_main_v15_apply x2 _).trans ((val_main_v14_apply x2 _).trans ?_)
  show -(val_main_v13 (F := Ideal) x2 (idx_main_v15 (ix2 n k))) = 0 - x2 (ix1 k)
  rw [val_main_v13_apply, zero_sub]
  have e : idx_main_v13 (idx_main_v15 (ix2 n k)) = ix1 k := funext fun a => Fin.ext (by match a with | ⟨0, _⟩ => rfl)
  rw [e]

/-- The features: at (n, k), the k-th radial feature of data row n. -/
theorem feature_apply (x0 : (⟨S65536x256, .f32⟩ : BufTy).Contents (Elt Ideal)) (x1 : (⟨S1024x256, .f32⟩ : BufTy).Contents (Elt Ideal))
    (x2 : (⟨S1024, .f32⟩ : BufTy).Contents (Elt Ideal)) (n : Fin 65536) (k : Fin 1024) :
    val_main_v17 (F := Ideal) x0 x1 x2 (ix2 n k) = Cert.Rbf.feature (fun d => x0 (ix2 n d)) x1 x2 k := by
  unfold Cert.Rbf.feature
  refine congrArg Ideal.exp (congrArg₂ (· * ·) (negWidth_apply x2 n k) ?_)
  refine congrArg₂ (· - ·) (congrArg₂ (· + ·) (dataNorm_apply x0 n k) (centreNorm_apply x1 n k)) ?_
  refine congrArg₂ (· * ·) ?_ (cross_apply x0 x1 n k)
  exact val_main_v10_apply (F := Ideal) (ix2 n k)

/-- The reference's result array is the network function of its five arguments. -/
theorem result_eq (x0 : (⟨S65536x256, .f32⟩ : BufTy).Contents (Elt Ideal)) (x1 : (⟨S1024x256, .f32⟩ : BufTy).Contents (Elt Ideal))
    (x2 : (⟨S1024, .f32⟩ : BufTy).Contents (Elt Ideal)) (x3 : (⟨S128x1024, .f32⟩ : BufTy).Contents (Elt Ideal))
    (x4 : (⟨S128, .f32⟩ : BufTy).Contents (Elt Ideal)) :
    val_main_v22 (F := Ideal) x0 x1 x2 x3 x4 = Cert.Rbf.network x0 x1 x2 x3 x4 := by
  funext i
  obtain ⟨n, o, rfl⟩ : ∃ (n : Fin 65536) (o : Fin 128), i = ix2 n o := ⟨i 0, i 1, eq_ix2 i⟩
  unfold Cert.Rbf.network Cert.Rbf.rowOut
  refine congrArg₂ (· + ·) ?_ ?_
  · -- the product with the transposed weights: the features of row n against row o of the weights
    refine (val_main_v19_apply x0 x1 x2 x3 _).trans (Finset.sum_congr rfl fun k _ => ?_)
    have el : lidx_main_v19 (ix2 n o) k = ix2 n k := Shape.idx_ext₂ rfl rfl
    have er : idx_main_v18 (ridx_main_v19 (ix2 n o) k) = ix2 o k := Shape.idx_ext₂ rfl rfl
    rw [el, val_main_v18_apply, er]
    exact congrArg₂ (· * ·) (feature_apply x0 x1 x2 n k) rfl
  · -- the bias, spread over the data rows
    refine (val_main_v21_apply x4 _).trans ((val_main_v20_apply x4 _).trans (congrArg x4 ?_))
    exact funext fun a => Fin.ext (by match a with | ⟨0, _⟩ => rfl)

end Cert.ReferenceIdeal.RefValue

end
-- ==== Proof.lean ====
/-
  A radial-basis network, tiled over its data rows, against the same network on whole arrays.

  Both programs compute, for data rows x_n (65536 × 256), centres c_k (1024 × 256), widths σ_k, weights W (128 × 1024)
  and a bias β,

      out[n, o] = Σ_k exp( −σ_k · ( (‖x_n‖² + ‖c_k‖²) − 2 · ⟨x_n, c_k⟩ ) ) · W[o, k] + β[o]

  with the squared distance in this expanded form and this grouping on both sides. The tiled program takes 2048 rows per
  grid point, keeps the centres, widths, weights and bias resident, rounds the operands of its two matrix products to a
  shorter float format (the identity on the extended reals), forms −σ as 0 − σ, and sums a row's squares without a
  starting value; the whole-array program negates σ, starts each row sum from the zero word and transposes W before
  its second product. On the extended reals these are one function: 0 − σ = −σ and 0 + s = s hold at the infinities
  too, a product contracted on the right operand's last axis is the product with its transpose, and no sum is
  regrouped. So the precondition (finite inputs) is not used for the value.

  `Rbf.network` (RbfSpec) is that function; `Tile.run` (KernelArray, over the entry lemma of KernelRow) says the tiled
  program's output array ends holding it; `RefValue.result_eq` (RefArray) says the whole-array program's result term is
  it. The three frames are the programs' runs with the result dropped, and the idealized tiled program is the printed
  one read on the extended reals with no rewrite to account for.
-/
import proofs.«110555_j45226005627083_1_alg».proof.Defs
import proofs.«110555_j45226005627083_1_alg».proof.Proof.Gen.Kernel
import proofs.«110555_j45226005627083_1_alg».proof.Proof.Gen.Kernel.Skeleton
import proofs.«110555_j45226005627083_1_alg».proof.Proof.Gen.Kernel.Launch
import proofs.«110555_j45226005627083_1_alg».proof.Proof.Gen.Kernel.Points
import proofs.«110555_j45226005627083_1_alg».proof.Proof.Gen.Kernel.Frame
import proofs.«110555_j45226005627083_1_alg».proof.Proof.Gen.KernelIdeal
import proofs.«110555_j45226005627083_1_alg».proof.Proof.Gen.KernelIdeal.Skeleton
import proofs.«110555_j45226005627083_1_alg».proof.Proof.Gen.KernelIdeal.Launch
import proofs.«110555_j45226005627083_1_alg».proof.Proof.Gen.KernelIdeal.Points
import proofs.«110555_j45226005627083_1_alg».proof.Proof.Gen.KernelIdeal.Frame
import proofs.«110555_j45226005627083_1_alg».proof.Proof.Gen.ReferenceIdeal
import proofs.«110555_j45226005627083_1_alg».proof.Proof.Gen.Pre_finite_inputs
import proofs.«110555_j45226005627083_1_alg».proof.Proof.Gen.KernelIdeal.Value
import proofs.«110555_j45226005627083_1_alg».proof.Proof.Gen.ReferenceIdeal.Run
import proofs.«110555_j45226005627083_1_alg».proof.Proof.Gen.ReferenceIdeal.Read
import proofs.«110555_j45226005627083_1_alg».proof.Proof.KernelArray
import proofs.«110555_j45226005627083_1_alg».proof.Proof.RefArray
import Idealize.ShloMosaic.Adequacy
import Idealize.ShloMosaic.Init

noncomputable section

namespace Cert.Proof

open Idealize.ShloMosaic Idealize.ShloMosaic.TcCoe Idealize.SL.Sem

/-- The tiled program at the word level runs and leaves its arguments as they were. -/
theorem frame_kernel : Cert.frame_Kernel := fun m ρ _ => Cert.Kernel.Gen.frame m ρ

/-- The tiled program on the extended reals runs and leaves its arguments as they were. -/
theorem frame_kernelIdeal : Cert.frame_KernelIdeal := fun m ρ _ => Cert.KernelIdeal.Gen.frame m ρ

/-- The whole-array program runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments, the tiled program's output array and the whole-array program's
    result both end at the network function of those arguments. -/
theorem algebraic : Cert.algebraic_KernelIdeal_ReferenceIdeal := by
  intro m ρ m' ρ' _ hagree
  refine ⟨_, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
